-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S64x256 : Shape := ⟨2, ![64, 256]⟩
abbrev S500000 : Shape := ⟨1, ![500000]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S500000x256 .f32) (main_arg1 : FVec F S64x256 .f32) (main_arg2 : IVec S500000 32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_c_2 : IVec S_ 32 := constantI S_ 32 0#32
  let main_v9 : IVec S500000 32 := broadcastInDim S500000 ![] bcast_S_S500000 main_c_2
  let main_v10 : IVec S500000 1 := cmpi .sge main_arg2 main_v9
  let main_c_3 : IVec S_ 1 := constantI S_ 1 1#1
  let main_v11 : IVec S_ 1 := (fun x v => Host.reduce IntOp.andi x v reducesTo_S500000_S_d0 h_S_) main_v10 main_c_3
  let main_v12 : IVec S_ 1 := andi main_v8 main_v11
  let main_c_4 : IVec S_ 32 := constantI S_ 32 64#32
  let main_v13 : IVec S500000 32 := broadcastInDim S500000 ![] bcast_S_S500000 main_c_4
  let main_v14 : IVec S500000 1 := cmpi .slt main_arg2 main_v13
  let main_c_5 : IVec S_ 1 := constantI S_ 1 1#1
  let main_v15 : IVec S_ 1 := (fun x v => Host.reduce IntOp.andi x v reducesTo_S500000_S_d0 h_S_) main_v14 main_c_5
  fn_part1 (F := F) main_v12 main_v15
-- ==== Kernel.lean ====
abbrev S500000x256 : Shape := ⟨2, ![500000, 256]⟩
abbrev S64x256 : Shape := ⟨2, ![64, 256]⟩
abbrev S500000 : Shape := ⟨1, ![500000]⟩
abbrev S_ : Shape := ⟨0, ![]⟩
abbrev S505856x256 : Shape := ⟨2, ![505856, 256]⟩
abbrev S505856 : Shape := ⟨1, ![505856]⟩
abbrev S64 : Shape := ⟨1, ![64]⟩
abbrev S64x1 : Shape := ⟨2, ![64, 1]⟩
abbrev S256x64 : Shape := ⟨2, ![256, 64]⟩
abbrev S13312x256 : Shape := ⟨2, ![13312, 256]⟩
abbrev S13312 : Shape := ⟨1, ![13312]⟩
abbrev S13312x1 : Shape := ⟨2, ![13312, 1]⟩
abbrev S13312x64 : Shape := ⟨2, ![13312, 64]⟩

abbrev nBuf : Space → Nat
  | .hbm => 30
  | .vmem => 7
  | .smem => 0
  | _ => 0

abbrev bufTy : (tb : Table) → Fin (tcTables nBuf tb) → BufTy
  | .hbm, ⟨0, _⟩ => ⟨S500000x256, .f32⟩
  | .hbm, ⟨1, _⟩ => ⟨S64x256, .f32⟩
  | .hbm, ⟨2, _⟩ => ⟨S500000, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S500000, .i32⟩
  | .hbm, ⟨7, _⟩ => ⟨S500000, .i32⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S_, .i32⟩
  | .hbm, ⟨12, _⟩ => ⟨S_, .f32⟩
  | .hbm, ⟨13, _⟩ => ⟨S505856x256, .f32⟩
  | .hbm, ⟨14, _⟩ => ⟨S_, .i32⟩
  | .hbm, ⟨15, _⟩ => ⟨S_, .i32⟩
  | .hbm, ⟨16, _⟩ => ⟨S505856, .i32⟩
  | .hbm, ⟨17, _⟩ => ⟨S64x256, .f32⟩
  | .hbm, ⟨18, _⟩ => ⟨S_, .f32⟩
  | .hbm, ⟨19, _⟩ => ⟨S64, .f32⟩
  | .hbm, ⟨20, _⟩ => ⟨S64x1, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S64x256, .f32⟩
  | .hbm, ⟨26, _⟩ => ⟨S64x256, .f32⟩
  | .hbm, ⟨27, _⟩ => ⟨S256x64, .f32⟩
  | .hbm, ⟨28, _⟩ => ⟨S505856, .f32⟩
  | .hbm, ⟨29, _⟩ => ⟨S500000, .f32⟩
  | .local _ .vmem, ⟨0, _⟩ => ⟨S13312x256, .f32⟩
  | .local _ .vmem, ⟨1, _⟩ => ⟨S13312x256, .f32⟩
  | .local _ .vmem, ⟨2, _⟩ => ⟨S13312, .i32⟩
  | .local _ .vmem, ⟨3, _⟩ => ⟨S13312, .i32⟩
  | .local _ .vmem, ⟨4, _⟩ => ⟨S256x64, .f32⟩
  | .local _ .vmem, ⟨5, _⟩ => ⟨S13312, .f32⟩
  | .local _ .vmem, ⟨6, _⟩ => ⟨S13312, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_call1_v0 : Ref sig .tc := ⟨.hbm, 12, rfl⟩
abbrev main_v1 : Ref sig .tc := ⟨.hbm, 13, rfl⟩
abbrev main_c_2 : Ref sig .tc := ⟨.hbm, 14, rfl⟩
abbrev main_call2_v0 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![38], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S13312x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S13312 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S13312 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S500000 : S_.BroadcastsInDim S500000 (![] : Fin 0 → Fin S500000.rank)
  pads_S500000x256_S505856x256_058560_000 : S500000x256.Pads (![0, 0] : Fin 2 → Nat) ![5856, 0] ![0, 0] S505856x256
  h_S_ : 0 < S_.numel
  pads_S500000_S505856_058560 : S500000.Pads (![0] : Fin 1 → Nat) ![5856] ![0] S505856
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  transposes_S64x256_S256x64_1_0 : S64x256.Transposes [1, 0] S256x64
  inb_S13312x256_S13312x256_0_0 : ∀ a, (![0, 0] : Fin 2 → Nat) a + S13312x256.size a ≤ S13312x256.size a
  h_S13312x256 : 0 < S13312x256.numel
  shapeCasts_S13312x256_S13312x256 : S13312x256.ShapeCasts S13312x256
  reduces_S13312x256_S13312 : S13312x256.Reduces [1] S13312
  shapeCasts_S13312_S13312x1 : S13312.ShapeCasts S13312x1
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S13312_S13312_0 : ∀ a, (![0] : Fin 1 → Nat) a + S13312.size a ≤ S13312.size a
  h_S13312 : 0 < S13312.numel
  shapeCasts_S13312_S13312 : S13312.ShapeCasts S13312
  iota_S13312x64_d1_w32 : S13312x64.Iotas .tc 32 [1]
  broadcasts_S13312x1_S13312x64 : S13312x1.Broadcasts S13312x64
  reduces_S13312x64_S13312 : S13312x64.Reduces [1] S13312
  shapeCasts_S13312x1_S13312 : S13312x1.ShapeCasts S13312
  slices_S505856_S500000_0 : S505856.Slices ![0] S500000
  dot_S13312x256_S256x64_S13312x64_1_0_0_1_n_n_wf : DotDims.WF S13312x256 S256x64 S13312x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S13312x256.size a ≤ S505856x256.size a
  hwx0_0 : ∀ i : grid0.Coords, EltTy.bits .f32 = 32 ∨ (Rect.block (s := S505856x256) S13312x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S13312.size a ≤ S505856.size a
  hwx0_1 : ∀ i : grid0.Coords, EltTy.bits .i32 = 32 ∨ (Rect.block (s := S505856) S13312.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S13312.size a ≤ S505856.size a
  hwx0_3 : ∀ i : grid0.Coords, EltTy.bits .f32 = 32 ∨ (Rect.block (s := S505856) S13312.size (cc0_transform_3 i) (hinb0_3 i)).WholeWords (EltTy.packing .f32)

variable [Facts₀]

def dot_S13312x256_S256x64_S13312x64_1_0_0_1_n_n : DotDims S13312x256 S256x64 S13312x64 where
  lhsContracting := [1]
  rhsContracting := [0]
  lhsNonContracting := [0]
  rhsNonContracting := [1]
  lhsBatch := []
  rhsBatch := []
  wf := dot_S13312x256_S256x64_S13312x64_1_0_0_1_n_n_wf

abbrev win0_0 : Pipeline.Window sig grid0 :=
  Pipeline.Window.ofSpec (Memref.whole main_v1) S13312x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S13312.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S13312.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x256 : Shape := ⟨2, ![500000, 256]⟩
abbrev S64x256 : Shape := ⟨2, ![64, 256]⟩
abbrev S500000 : Shape := ⟨1, ![500000]⟩
abbrev S_ : Shape := ⟨0, ![]⟩
abbrev S500000x1 : Shape := ⟨2, ![500000, 1]⟩
abbrev S64 : Shape := ⟨1, ![64]⟩
abbrev S64x1 : Shape := ⟨2, ![64, 1]⟩

abbrev nBuf : Space → Nat
  | .hbm => 35
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S64x256, .f32⟩
  | .hbm, ⟨2, _⟩ => ⟨S500000, .i32⟩
  | .hbm, ⟨3, _⟩ => ⟨S500000x256, .f32⟩
  | .hbm, ⟨4, _⟩ => ⟨S_, .f32⟩
  | .hbm, ⟨5, _⟩ => ⟨S500000, .f32⟩
  | .hbm, ⟨6, _⟩ => ⟨S500000x1, .f32⟩
  | .hbm, ⟨7, _⟩ => ⟨S500000x1, .f32⟩
  | .hbm, ⟨8, _⟩ => ⟨S_, .f32⟩
  | .hbm, ⟨9, _⟩ => ⟨S500000x1, .f32⟩
  | .hbm, ⟨10, _⟩ => ⟨S500000x1, .f32⟩
  | .hbm, ⟨11, _⟩ => ⟨S500000x256, .f32⟩
  | .hbm, ⟨12, _⟩ => ⟨S500000x256, .f32⟩
  | .hbm, ⟨13, _⟩ => ⟨S64x256, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x256, .f32⟩
  | .hbm, ⟨22, _⟩ => ⟨S64x256, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x256, .f32⟩
  | .hbm, ⟨32, _⟩ => ⟨S500000x256, .f32⟩
  | .hbm, ⟨33, _⟩ => ⟨S_, .f32⟩
  | .hbm, ⟨34, _⟩ => ⟨S500000, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  reducesTo_S500000x256_S500000_d1 : S500000x256.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x256_0_1 : S500000x1.BroadcastsInDim S500000x256 (![0, 1] : Fin 2 → Fin S500000x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S_S500000 : S_.BroadcastsInDim S500000 (![] : Fin 0 → Fin S500000.rank)
  gather_S64x256_S500000x1_S500000x256_1_0_n_n_0_1_1256_wf : GatherDims.WF S64x256 S500000x1 S500000x256 [1] [0] [] [0] [] 1 ![1, 256]

variable [Facts₀]

def gather_S64x256_S500000x1_S500000x256_1_0_n_n_0_1_1256 : GatherDims S64x256 S500000x1 S500000x256 where
  offsetDims := [1]
  collapsedSliceDims := [0]
  operandBatchingDims := []
  startIndicesBatchingDims := []
  startIndexMap := [0]
  indexVectorDim := 1
  sliceSizes := ![1, 256]
  wf := gather_S64x256_S500000x1_S500000x256_1_0_n_n_0_1_1256_wf

class Facts : Prop extends Facts₀ where

variable [Facts]
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Spec.lean ====
/-
  The two per-row formulas, over extended reals.

  A row `x` of 256 features is scored against the query of its graph. The reference normalises both vectors — each
  divided by the larger of its length and a small constant `ε` — and takes their dot product (`cosine`). The kernel takes
  the dot product of the raw row with every already-normalised query (a 256 × 64 table, one column per graph), keeps the
  column whose number is the row's graph id, and scales the kept number by the reciprocal square root of the larger of
  the row's squared length and a second constant `e2` (`pickScale`). The host's sums start from the zero word, which is
  kept here as the word it is.
-/
import Idealize.ShloMosaic.PureOps.Ideal

noncomputable section

open scoped BigOperators

namespace Cert.Score

open Idealize.ShloMosaic

/-- The squared length of a row, as the host sums it. -/
def sqLen (v : Fin 256 → EReal) : EReal := Ideal.ofBits .f32 0x00000000#32 + ∑ k : Fin 256, v k * v k

/-- The length of a row, kept from falling under the reference's constant. -/
def clampLen (v : Fin 256 → EReal) : EReal := max (Ideal.sqrt (sqLen v)) (Ideal.ofBits .f32 0x2B8CBCCC#32)

/-- A row divided by its clamped length. -/
def unitRow (v : Fin 256 → EReal) (k : Fin 256) : EReal := Ideal.div (v k) (clampLen v)

/-- The reference's score of a row against a query: the dot product of the two normalised vectors. -/
def cosine (x q : Fin 256 → EReal) : EReal := Ideal.ofBits .f32 0x00000000#32 + ∑ k : Fin 256, unitRow x k * unitRow q k

/-- The kernel's score of a row with graph id `b` against a table `Q` of columns: the dot product with the column
    numbered `b`, picked by a select against each column number and a sum over the columns, times the reciprocal square
    root of the larger of the row's squared length and `e2`. -/
def pickScale (e2 : EReal) (x : Fin 256 → EReal) (b : BitVec 32) (Q : Fin 256 → Fin 64 → EReal) : EReal :=
  (∑ g : Fin 64, Scalar.select (IntOp.cmpi .eq b (BitVec.ofNat 32 g.val)) (∑ k : Fin 256, x k * Q k g) (Ideal.ofBits .f32 0x00000000#32))
    * Ideal.rsqrt (max (∑ k : Fin 256, x k * x k) e2)

end Cert.Score

end
-- ==== Proof.Payload.lean ====
/-
  One grid point's arithmetic, read at one row of its block.

  A point holds a block of 13312 rows of the (zero-padded) feature matrix, the matching 13312 graph ids, and the whole
  256 × 64 table of normalised queries (one column per graph). For row `p` it forms the squared length
  `∑ k, x p k * x p k`; the 64 dot products `∑ k, x p k * Q k g` of the row with every column of the table (the matrix
  product into a zero accumulator is this exact sum over the extended reals, and the change of format before it is the
  identity); keeps the one whose column number is the row's graph id (a select against the column counter, then a sum
  over the 64 columns); and multiplies it by the reciprocal square root of the larger of the squared length and the
  named constant.
-/
import proofs.«427464_j14405320311457_3_alg».proof.Proof.Gen.KernelIdeal.Skeleton
import proofs.«427464_j14405320311457_3_alg».proof.Proof.LibPlainDot
import proofs.«427464_j14405320311457_3_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Score

open Idealize.ShloMosaic Idealize.ShloMosaic.ValueIdx Cert.KernelIdeal Cert.KernelIdeal.Gen

/-- A vector of length `a` viewed as an `a × 1` column: entry (p, 0) is entry p. -/
theorem column_apply {α : Type} {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- An `a × 1` column viewed as a vector of length `a`: entry p is entry (p, 0). -/
theorem uncolumn_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- The dimension numbers of the point's matrix product are the plain "rows × contraction by contraction × columns". -/
theorem dot_plain : dot_S13312x256_S256x64_S13312x64_1_0_0_1_n_n = DotDims.plain 13312 256 64 := rfl

/-- A sum along the rows of an `n × m` array, at row p: the sum of the row's entries. -/
theorem rowsum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (p : Fin n) :
    multiReduction .add [1] ⟨1, ![n]⟩ src 0x00000000#32 h hφ hacc (ix1 p) = ∑ k : Fin m, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- The constant the kernel compares the squared length with, as the named extended real. -/
abbrev epsSq : EReal := Named.named (F := Ideal) κ "eps_sq" (φ := .f32) 0x179ABE15#32

/-- What a point stores at row `p` of its output block: the kernel's per-row score of row `p` of the feature block, with
    the row's graph id, against the whole table. -/
theorem pay_apply (v0 : Vec Ideal S13312x256 .f32) (v6 : Vec Ideal S256x64 .f32) (v10 : Vec Ideal S13312 .i32) (p : Fin 13312) :
    k0_pay1 (F := Ideal) v0 v6 v10 (ix1 p)
      = Cert.Score.pickScale epsSq (fun k => v0 (ix2 p k)) (v10 (ix1 p)) (fun k g => v6 (ix2 k g)) := by
  unfold k0_pay1 Cert.Score.pickScale epsSq
  simp only [shapeCast_self]
  rw [uncolumn_apply]
  show _ * _ = _
  congr 1
  · refine (column_apply _ _ p 0).trans ?_
    refine (rowsum_apply _ _ _ _ p).trans ?_
    refine Finset.sum_congr rfl fun g _ => ?_
    show Scalar.select (IntOp.cmpi .eq _ _) _ _ = _
    congr 1
    · congr 1
      · refine (broadcastTo_apply _ _ (ix2 p g) (ix2 p (0 : Fin 1)) fun a => ?_).trans (column_apply _ _ p 0)
        match a with
        | ⟨0, _⟩ => rfl
        | ⟨1, _⟩ => rfl
      · exact iota_single_apply .tc S13312x64 32 1 iota_S13312x64_d1_w32 (ix2 p g)
    · rw [dot_plain]
      exact Cert.LibPlainDot.matmul_plain_apply 13312 256 64 none _ _ p g
  · show Ideal.rsqrt (max _ _) = _
    congr 2
    exact (column_apply _ _ p 0).trans (rowsum_apply _ _ _ _ p)

end Cert.KernelIdeal.Score

end
-- ==== Proof.Blocks.lean ====
/-
  From one point's block to the whole padded score array.

  The grid has 38 points; point `t` reads rows `13312 t … 13312 t + 13311` of the padded feature matrix and of the
  padded graph ids, reads the whole query table, and writes back rows `13312 t …` of the padded result. So what point `t`
  writes back is block `t` of ONE array, `padded`: row `j` scored from row `j` of the padded features, entry `j` of the
  padded ids and the table. The 38 blocks tile the 505856 rows (row `j` lies in block `j / 13312`), so after the region
  the result array is `padded`.
-/
import proofs.«427464_j14405320311457_3_alg».proof.Proof.Gen.KernelIdeal.Frame
import proofs.«427464_j14405320311457_3_alg».proof.Proof.Payload
import Idealize.ShloMosaic.Lib.Pipeline.Value

noncomputable section

open scoped BigOperators

namespace Cert.KernelIdeal.Score

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The zero offset of a whole rank-1 block, and of a whole rank-2 block. -/
theorem hz1 : (![0] : Fin 1 → Nat) = fun _ => 0 := funext fun a => by fin_cases a; rfl
theorem hz2 : (![0, 0] : Fin 2 → Nat) = fun _ => 0 := funext fun a => by fin_cases a <;> rfl

/-- What a point stores at any index of its output block. -/
theorem pay_at (v0 : Vec Ideal S13312x256 .f32) (v6 : Vec Ideal S256x64 .f32) (v10 : Vec Ideal S13312 .i32) (y : S13312.Idx) :
    k0_pay1 (F := Ideal) v0 v6 v10 y
      = Cert.Score.pickScale epsSq (fun k => v0 (ix2 (⟨(y 0).val, (y 0).isLt⟩ : Fin 13312) k)) (v10 y) (fun k g => v6 (ix2 k g)) := by
  obtain ⟨p, rfl⟩ : ∃ p : Fin 13312, y = ix1 p := ⟨y 0, eq_ix1 y⟩
  exact pay_apply v0 v6 v10 p

/-- The per-row score depends on the row, the id and the table only through their entries. -/
theorem pickScale_congr {e2 : EReal} {x x' : Fin 256 → EReal} {b b' : BitVec 32} {Q Q' : Fin 256 → Fin 64 → EReal}
    (hx : ∀ k, x k = x' k) (hb : b = b') (hQ : ∀ k g, Q k g = Q' k g) :
    Cert.Score.pickScale e2 x b Q = Cert.Score.pickScale e2 x' b' Q' := by
  obtain rfl : x = x' := funext hx
  obtain rfl := hb
  obtain rfl : Q = Q' := funext fun k => funext (hQ k)
  rfl

/-- The padded score array: row `j` scored from row `j` of the padded features `X`, entry `j` of the padded ids `B`, and
    the table `Q`. -/
def padded (X : S505856x256.Idx → EReal) (B : S505856.Idx → BitVec 32) (Q : S256x64.Idx → EReal) : S505856.Idx → EReal := fun j =>
  Cert.Score.pickScale epsSq (fun k => X (ix2 (⟨(j 0).val, (j 0).isLt⟩ : Fin 505856) k)) (B j) (fun k g => Q (ix2 k g))

/-- The printed index maps, decided over the grid: the feature, id and result windows are at block `t` at point `t`; the
    table's window stays at its one block. -/
theorem idx_facts : ∀ t : Fin cfg0.N, win0_0.index t (0 : Fin 2) = t.val ∧ win0_0.index t (1 : Fin 2) = 0
    ∧ win0_1.index t (0 : Fin 1) = t.val ∧ win0_2.index t (0 : Fin 2) = 0 ∧ win0_2.index t (1 : Fin 2) = 0
    ∧ win0_3.index t (0 : Fin 1) = t.val :=
  (by decide +kernel : ∀ t : Fin grid0.N, _)

/-- What point `t` writes back is block `t` of `padded` of the three arrays as the region finds them. -/
theorem flushed_eq (c : Dev nD) (t : Fin cfg0.N) :
    (dats m 0 c).flushed 3 t
      = ((cfg0.win 3).blk t).view.read (Elt Ideal) (padded (V m c main_v1) (V m c main_v2) (V m c main_v11)) := by
  show (cfg0.win 3).cut (grid0.coords t) ((dats m 0 c).after 3 t) = _
  rw [after0_3]
  unfold out0_3
  rw [View.canon_unit_zero hz1]
  simp only [View.ld_unit_zero (S := S13312x256) hz2, View.ld_unit_zero (S := S256x64) hz2, View.ld_unit_zero (S := S13312) hz1]
  obtain ⟨e0, e1, e2, e3, e4, e5⟩ := idx_facts t
  funext y
  show k0_pay1 (iblk m c 0 t) (iblk m c 2 t) (iblk m c 1 t) y
    = padded (V m c main_v1) (V m c main_v2) (V m c main_v11) (((cfg0.win 3).blk t).view.emb y)
  refine (pay_at _ _ _ y).trans ?_
  unfold padded
  refine pickScale_congr (fun k => ?_) ?_ (fun k g => ?_)
  · show V m c main_v1 (((cfg0.win 0).blk t).view.emb (ix2 (⟨(y 0).val, (y 0).isLt⟩ : Fin 13312) k)) = V m c main_v1 _
    congr 1
    funext a
    apply Fin.ext
    match a with
    | ⟨0, _⟩ =>
      show win0_0.index t (0 : Fin 2) * 13312 + 1 * (y 0).val = win0_3.index t (0 : Fin 1) * 13312 + 1 * (y 0).val
      rw [e0, e5]
    | ⟨1, _⟩ =>
      show win0_0.index t (1 : Fin 2) * 256 + 1 * k.val = k.val
      rw [e1]; omega
  · show V m c main_v2 (((cfg0.win 1).blk t).view.emb y) = V m c main_v2 (((cfg0.win 3).blk t).view.emb y)
    congr 1
  · show V m c main_v11 (((cfg0.win 2).blk t).view.emb (ix2 k g)) = V m c main_v11 (ix2 k g)
    congr 1
    funext a
    apply Fin.ext
    match a with
    | ⟨0, _⟩ =>
      show win0_2.index t (0 : Fin 2) * 256 + 1 * k.val = k.val
      rw [e3]; omega
    | ⟨1, _⟩ =>
      show win0_2.index t (1 : Fin 2) * 64 + 1 * g.val = g.val
      rw [e4]; omega

/-- An index of the padded result is in point `t`'s block iff it is one of rows `13312 t … 13312 t + 13311`. -/
theorem mem_blk (t : Fin cfg0.N) (i : S505856.Idx) :
    i ∈ ((cfg0.win 3).blk t).view.set
      ↔ ∀ a : Fin 1, win0_3.index t a * S13312.size a ≤ (i a).val ∧ (i a).val < win0_3.index t a * S13312.size a + S13312.size a := by
  show i ∈ ((View.whole main_v12).slice (win0_3.rect t)).set ↔ _
  rw [View.set_slice_whole, Rect.mem_set_unit]
  exact Iff.rfl

/-- After the region the padded result array is `padded` of the three arrays the region found: row `j` is written by
    point `j / 13312`. -/
theorem final (c : Dev nD) :
    (dats m 0 c).arrAt 3 cfg0.N = padded (V m c main_v1) (V m c main_v2) (V m c main_v11) :=
  (dats m 0 c).arrAt_eq_of_cover 3 _ (fun t _ => flushed_eq m c t) fun i => by
    have hi : (i 0).val < 505856 := (i 0).isLt
    have hN : cfg0.N = 38 := N_0
    have ht : (i 0).val / 13312 < cfg0.N := by rw [hN]; omega
    obtain ⟨-, -, -, -, -, e5⟩ := idx_facts ⟨(i 0).val / 13312, ht⟩
    refine ⟨⟨(i 0).val / 13312, ht⟩, flush0_3 _, ?_⟩
    rw [mem_blk]
    intro a
    match a with
    | ⟨0, _⟩ =>
      show win0_3.index ⟨(i 0).val / 13312, ht⟩ (0 : Fin 1) * 13312 ≤ (i 0).val
        ∧ (i 0).val < win0_3.index ⟨(i 0).val / 13312, ht⟩ (0 : Fin 1) * 13312 + 13312
      rw [e5]
      show (i 0).val / 13312 * 13312 ≤ (i 0).val ∧ (i 0).val < (i 0).val / 13312 * 13312 + 13312
      omega

end Cert.KernelIdeal.Score

end
-- ==== Proof.Host.lean ====
/-
  The host operations around the region, read back.

  Before the region the host pads the feature matrix with 5856 zero rows (38 blocks of 13312 rows hold 505856), clips the
  graph ids into [0, 63] and pads them with zeros, and builds the table: each query divided by its clamped length, then
  transposed to 256 × 64. After the region it keeps the first 500000 entries of the padded result.
-/
import proofs.«427464_j14405320311457_3_alg».proof.Proof.Gen.KernelIdeal.Frame
import Idealize.ShloMosaic.Lib.StableHlo.Run
import Idealize.ShloMosaic.Lib.ValueIdx
import Idealize.ShloMosaic.Lib.KernelVsHost
import Idealize.ShloMosaic.Lib.Pipeline.Value
import Idealize.ShloMosaic.Lib.StableHlo.Predicate

noncomputable section

open scoped BigOperators

namespace Cert.KernelIdeal.Score

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The three arguments as the program is launched with them. -/
abbrev argX (c : Dev nD) : S500000x256.Idx → EReal := m ((c : Thread nD τ).loc main_arg0)
abbrev argQ (c : Dev nD) : S64x256.Idx → EReal := m ((c : Thread nD τ).loc main_arg1)
abbrev argB (c : Dev nD) : S500000.Idx → BitVec 32 := m ((c : Thread nD τ).loc main_arg2)

/-- The ids clipped into [0, 63]. -/
def clipped (b : S500000.Idx → BitVec 32) : S500000.Idx → BitVec 32 :=
  minsi (broadcastInDim S500000 ![] bcast_S_S500000 (constantI S_ 32 63#32))
    (maxsi (broadcastInDim S500000 ![] bcast_S_S500000 (constantI S_ 32 0#32)) b)

/-- The normalised queries, one per row. -/
def normQ (q : S64x256.Idx → EReal) : S64x256.Idx → EReal :=
  Host.divf (F := Ideal) q (broadcastInDim S64x256 ![0, 1] bcast_S64x1_S64x256_0_1
    (maximumf (F := Ideal) (Host.sqrt (F := Ideal) (broadcastInDim S64x1 ![0] bcast_S64_S64x1_0
        (Host.reduceAdd (F := Ideal) (mulf (F := Ideal) q q) (constant (F := Ideal) S_ .f32 0x00000000#32) reducesTo_S64x256_S64_d1 h_S_)))
      (broadcastInDim S64x1 ![] bcast_S_S64x1 (constant (F := Ideal) S_ .f32 0x2B8CBCCC#32))))

/-- The feature matrix as the region finds it: padded below with rows of the zero word converted to a float. -/
theorem V_v1 (c : Dev nD) : (V m c main_v1 : S505856x256.Idx → EReal)
    = pad S505856x256 ![0, 0] ![5856, 0] ![0, 0] (argX m c) (sitofp (F := Ideal) .f32 (constantI S_ 32 0#32))
        pads_S500000x256_S505856x256_058560_000 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The ids as the region finds them: clipped, then padded with zeros. -/
theorem V_v2 (c : Dev nD) : (V m c main_v2 : S505856.Idx → BitVec 32)
    = pad S505856 ![0] ![5856] ![0] (clipped (argB m c)) (constantI S_ 32 0#32) pads_S500000_S505856_058560 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The table as the region finds it: the normalised queries, transposed. -/
theorem V_v11 (c : Dev nD) : (V m c main_v11 : S256x64.Idx → EReal)
    = transpose S256x64 [1, 0] (normQ (argQ m c)) transposes_S64x256_S256x64_1_0 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- A row of the padded features above row 500000 is the argument's row. -/
theorem V_v1_apply (c : Dev nD) (r : Fin 505856) (hr : r.val < 500000) (k : Fin 256) :
    (V m c main_v1 : S505856x256.Idx → EReal) (ix2 r k) = argX m c (ix2 (⟨r.val, hr⟩ : Fin 500000) k) := by
  rw [V_v1]
  refine pad_apply_of_inside _ _ _ _ _ _ _ (ix2 r k) (ix2 (⟨r.val, hr⟩ : Fin 500000) k) fun a => ?_
  match a with
  | ⟨0, _⟩ => show r.val = 0 + r.val * (0 + 1); omega
  | ⟨1, _⟩ => show k.val = 0 + k.val * (0 + 1); omega

/-- An entry of the padded ids above entry 500000 is the clipped id. -/
theorem V_v2_apply (c : Dev nD) (r : Fin 505856) (hr : r.val < 500000) :
    (V m c main_v2 : S505856.Idx → BitVec 32) (ix1 r) = clipped (argB m c) (ix1 (⟨r.val, hr⟩ : Fin 500000)) := by
  rw [V_v2]
  refine pad_apply_of_inside _ _ _ _ _ _ _ (ix1 r) (ix1 (⟨r.val, hr⟩ : Fin 500000)) fun a => ?_
  match a with
  | ⟨0, _⟩ => show r.val = 0 + r.val * (0 + 1); omega

/-- Entry (k, g) of the table is entry (g, k) of the normalised queries. -/
theorem V_v11_apply (c : Dev nD) (k : Fin 256) (g : Fin 64) :
    (V m c main_v11 : S256x64.Idx → EReal) (ix2 k g) = normQ (argQ m c) (ix2 g k) := by
  rw [V_v11]
  refine transpose_apply _ _ _ (ix2 k g) (ix2 g k) fun b => ?_
  match b with
  | ⟨0, _⟩ => rfl
  | ⟨1, _⟩ => rfl

/-- Clipping into [0, 63] leaves a small non-negative word as it is. -/
theorem clip_small (g : ℕ) (hg : g < 64) : IntOp.minsi 63#32 (IntOp.maxsi 0#32 (BitVec.ofNat 32 g)) = BitVec.ofNat 32 g := by
  have hti : (BitVec.ofNat 32 g).toInt = g := StableHlo.Predicate.toInt_ofNat_small g (by omega)
  have h0 : (0#32 : BitVec 32).toInt = 0 := by decide
  have h63 : (63#32 : BitVec 32).toInt = 63 := by decide
  have hmax : IntOp.maxsi 0#32 (BitVec.ofNat 32 g) = BitVec.ofNat 32 g := by
    unfold IntOp.maxsi
    rw [if_neg]
    simp only [BitVec.slt, hti, h0, decide_eq_true_eq]; omega
  rw [hmax]
  unfold IntOp.minsi
  rw [if_neg]
  simp only [BitVec.slt, hti, h63, decide_eq_true_eq]; omega

/-- An id in range is its own clip. -/
theorem clipped_apply (b : S500000.Idx → BitVec 32) (n : Fin 500000) (g : Fin 64) (hb : b (ix1 n) = BitVec.ofNat 32 g.val) :
    clipped b (ix1 n) = BitVec.ofNat 32 g.val := by
  unfold clipped
  show IntOp.minsi (broadcastInDim S500000 ![] bcast_S_S500000 (constantI S_ 32 63#32) (ix1 n))
    (IntOp.maxsi (broadcastInDim S500000 ![] bcast_S_S500000 (constantI S_ 32 0#32) (ix1 n)) (b (ix1 n))) = _
  rw [StableHlo.Predicate.bcast_scalar bcast_S_S500000 h_S_, StableHlo.Predicate.bcast_scalar bcast_S_S500000 h_S_, hb]
  exact clip_small g.val g.isLt

/-- What the program returns: the first 500000 entries of the padded result array as the region leaves it. -/
theorem tail_eq (c : Dev nD) :
    (Pipeline.afterTail₀ cfgs (dats m) 0 (V0 m) [hostOps1] c main_v13 : S500000.Idx → EReal)
      = extractStridedSlice S500000 ![0] ((dats m 0 c).arrAt 3 cfg0.N) slices_S505856_S500000_0 := by
  unfold Pipeline.afterTail₀
  show StableHlo.after hostOps1 _ (Proc.devRef .tc main_v13) = _
  after_results
  exact congrArg (fun A => extractStridedSlice S500000 ![0] A slices_S505856_S500000_0)
    (Pipeline.withArrays_arr spec0 launch0.win.arr_inj c (V0 m c) (fun w => (dats m 0 c).arrAt w cfg0.N) 3)

end Cert.KernelIdeal.Score

end
-- ==== Proof.KernelValue.lean ====
/-
  The kernel program's result, entry by entry, and its run.

  Entry `n` of what the program returns is entry `n` of the padded result; rows below 500000 of the padded features and
  ids are the arguments' (the ids clipped, which leaves an id in range alone), and the table's entry (k, g) is entry
  (g, k) of the normalised queries. So entry `n` is the kernel's per-row score of the argument's row `n`, with its id,
  against the normalised queries.
-/
import proofs.«427464_j14405320311457_3_alg».proof.Proof.Blocks
import proofs.«427464_j14405320311457_3_alg».proof.Proof.Host

noncomputable section

open scoped BigOperators

namespace Cert.KernelIdeal.Score

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- What the program returns, as one array: the first 500000 entries of the padded scores. -/
def result (c : Dev nD) : S500000.Idx → EReal :=
  extractStridedSlice S500000 ![0] (padded (V m c main_v1) (V m c main_v2) (V m c main_v11)) slices_S505856_S500000_0

/-- Entry `n` of the result, for an id in range. -/
theorem result_apply (c : Dev nD) (n : Fin 500000) (g : Fin 64) (hb : argB m c (ix1 n) = BitVec.ofNat 32 g.val) :
    result m c (ix1 n)
      = Cert.Score.pickScale epsSq (fun k => argX m c (ix2 n k)) (BitVec.ofNat 32 g.val)
          (fun k g' => normQ (argQ m c) (ix2 g' k)) := by
  have hn : n.val < 505856 := by have := n.isLt; omega
  unfold result
  refine (extractStridedSlice_apply _ _ _ (ix1 n) (ix1 (⟨n.val, hn⟩ : Fin 505856)) fun a => ?_).trans ?_
  · match a with
    | ⟨0, _⟩ => show n.val = 0 + n.val; omega
  · unfold padded
    refine pickScale_congr (fun k => ?_) ?_ (fun k g' => ?_)
    · exact V_v1_apply m c ⟨n.val, hn⟩ n.isLt k
    · exact (V_v2_apply m c ⟨n.val, hn⟩ n.isLt).trans (clipped_apply _ n g hb)
    · exact V_v11_apply m c k g'

/-- The run, read: the program ends with its result array at `result` and its arguments as launched. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans
        ((tail_eq m c).trans (by rw [final]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Score

end
-- ==== Proof.RefValue.lean ====
/-
  The reference, read at one row.

  Row `n` of the reference's result is the dot product of row `n` of the features, divided by its clamped length, with the
  row of the normalised query table that the gather picks for it. The gather reads the row numbered by the id after
  jnp's wrap of negative ids (`id < 0 ↦ id + 64`) and StableHLO's clamp into `[0, 63]`; on an id in range both leave the
  id as it is.
-/
import proofs.«427464_j14405320311457_3_alg».proof.Proof.Gen.ReferenceIdeal.Read
import proofs.«427464_j14405320311457_3_alg».proof.Proof.Spec
import Idealize.ShloMosaic.Lib.ValueIdx
import Idealize.ShloMosaic.Lib.StableHlo.Predicate

noncomputable section

open scoped BigOperators

namespace Cert.ReferenceIdeal.Score

open Idealize.ShloMosaic Idealize.ShloMosaic.ValueIdx Cert.ReferenceIdeal Cert.ReferenceIdeal.Gen Cert.ReferenceIdeal.Read Cert.Score

/-- A feature row divided by its clamped length, as the reference computes it. -/
theorem unit_x (x0 : S500000x256.Idx → EReal) (n : Fin 500000) (k : Fin 256) :
    val_main_v7 (F := Ideal) x0 (ix2 n k) = unitRow (fun k' => x0 (ix2 n k')) k := by
  rw [val_main_v7_apply, val_main_v6_apply, val_main_v5_apply, val_main_v3_apply, val_main_v2_apply, val_main_v1_apply,
    val_main_v4_apply, val_main_cst_0_apply, val_main_cst_apply]
  unfold unitRow clampLen sqLen
  simp only [Ideal.hostDivf_def, Ideal.maximumf_def, Ideal.hostUnary_sqrt_def, Ideal.ofBits_def, val_main_v0_apply, Ideal.mulf_def]
  have hi : ∀ k', idx_main_v1 (idx_main_v2 (idx_main_v6 (ix2 n k))) k' = ix2 n k' := fun k' => by
    funext a
    match a with
    | ⟨0, _⟩ => rfl
    | ⟨1, _⟩ => rfl
  simp only [hi]

/-- A query divided by its clamped length, as the reference computes it. -/
theorem unit_q (x1 : S64x256.Idx → EReal) (g : Fin 64) (k : Fin 256) :
    val_main_v15 (F := Ideal) x1 (ix2 g k) = unitRow (fun k' => x1 (ix2 g k')) k := by
  rw [val_main_v15_apply, val_main_v14_apply, val_main_v13_apply, val_main_v11_apply, val_main_v10_apply, val_main_v9_apply,
    val_main_v12_apply, val_main_cst_2_apply, val_main_cst_1_apply]
  unfold unitRow clampLen sqLen
  simp only [Ideal.hostDivf_def, Ideal.maximumf_def, Ideal.hostUnary_sqrt_def, Ideal.ofBits_def, val_main_v8_apply, Ideal.mulf_def]
  have hi : ∀ k', idx_main_v9 (idx_main_v10 (idx_main_v14 (ix2 g k))) k' = ix2 g k' := fun k' => by
    funext a
    match a with
    | ⟨0, _⟩ => rfl
    | ⟨1, _⟩ => rfl
  simp only [hi]

/-- The start index the gather reads for row `n`: the id, wrapped if negative; an id in [0, 64) is left as it is. -/
theorem start_index (x2 : S500000.Idx → BitVec 32) (n : Fin 500000) (g : Fin 64) (hb : x2 (ix1 n) = BitVec.ofNat 32 g.val) :
    val_main_v21 (F := Ideal) x2 (ix2 n (0 : Fin 1)) = BitVec.ofNat 32 g.val := by
  rw [val_main_v21_apply, val_main_v20_apply, val_main_v17_apply, val_main_v16_apply, val_main_c_apply]
  have hi : idx_main_v21 (ix2 n (0 : Fin 1)) = ix1 n := by
    funext a
    match a with
    | ⟨0, _⟩ => rfl
  rw [hi, hb]
  have hg := g.isLt
  have hlt : ¬ IntOp.cmpi .slt (BitVec.ofNat 32 g.val) 0#32 = 1#1 := fun h => by
    have := (StableHlo.Predicate.slt_iff_toNat (a := BitVec.ofNat 32 g.val) (b := 0#32)
      (by simp only [BitVec.toNat_ofNat]; omega) (by decide)).mp h
    simp at this
  exact if_neg hlt

/-- The gather's dimension numbers: rows of a 64 × 256 table picked by a 500000 × 1 column of start indices. -/
abbrev gd : GatherDims S64x256 S500000x1 S500000x256 := gather_S64x256_S500000x1_S500000x256_1_0_n_n_0_1_1256

/-- For an id in range, row `n` of the gather is row `g` of the normalised queries. -/
theorem gather_row (x1 : S64x256.Idx → EReal) (x2 : S500000.Idx → BitVec 32) (n : Fin 500000) (k : Fin 256) (g : Fin 64)
    (hb : x2 (ix1 n) = BitVec.ofNat 32 g.val) :
    val_main_v22 (F := Ideal) x1 x2 (ix2 n k) = val_main_v15 (F := Ideal) x1 (ix2 g k) := by
  unfold val_main_v22 Host.gather
  congr 1
  funext a
  apply Fin.ext
  have hg := g.isLt
  match a with
  | ⟨0, _⟩ =>
    show gd.start (ix2 n k) (val_main_v21 (F := Ideal) x2) (0 : Fin 2) + gd.batchCoord (ix2 n k) (0 : Fin 2)
      + gd.offCoord (ix2 n k) (0 : Fin 2) = g.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 n k) ⟨List.idxOf (0 : Fin 2) gd.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, start_index x2 n g hb]
    show min (BitVec.ofNat 32 g.val).toInt.toNat (64 - 1) = g.val
    rw [StableHlo.Predicate.toInt_ofNat_small _ (by omega)]
    simp only [Int.toNat_natCast]
    omega
  | ⟨1, _⟩ =>
    show gd.start (ix2 n k) (val_main_v21 (F := Ideal) x2) (1 : Fin 2) + gd.batchCoord (ix2 n k) (1 : Fin 2)
      + gd.offCoord (ix2 n k) (1 : Fin 2) = k.val
    rw [GatherDims.batchCoord_eq_zero _ _ _ List.not_mem_nil]
    unfold GatherDims.start
    rw [dif_neg (show (1 : Fin 2) ∉ gd.startIndexMap from by decide)]
    unfold GatherDims.offCoord
    rw [dif_pos (show (1 : Fin 2) ∈ gd.sKept from by decide)]
    simp only [Nat.zero_add, Nat.add_zero]
    rfl

/-- THE REFERENCE AT ROW `n`, for an id in range: the cosine of the feature row and the id's query. -/
theorem ref_row (x0 : S500000x256.Idx → EReal) (x1 : S64x256.Idx → EReal) (x2 : S500000.Idx → BitVec 32) (n : Fin 500000)
    (g : Fin 64) (hb : x2 (ix1 n) = BitVec.ofNat 32 g.val) :
    val_main_v24 (F := Ideal) x0 x1 x2 (ix1 n) = cosine (fun k => x0 (ix2 n k)) (fun k => x1 (ix2 g k)) := by
  rw [val_main_v24_apply, val_main_cst_4_apply]
  unfold cosine
  refine congrArg (Ideal.ofBits .f32 0x00000000#32 + ·) (Finset.sum_congr rfl fun k _ => ?_)
  have hi : idx_main_v24 (ix1 n) k = ix2 n k := by
    funext a
    match a with
    | ⟨0, _⟩ => rfl
    | ⟨1, _⟩ => rfl
  rw [hi, val_main_v23_apply, unit_x, gather_row x1 x2 n k g hb, unit_q]
  rfl

end Cert.ReferenceIdeal.Score

end
-- ==== Proof.Algebra.lean ====
/-
  The law that joins the two formulas.

  For a real row `x`, real queries `q g` and a graph number `g₀`: picking column `g₀` out of the 64 dot products
  `∑ k, x k * (q g k / M g)` (with `M g` the clamped length of query `g`) and scaling it by
  `1 / √(max (∑ x²) c²)` is the dot product of the two normalised vectors, `∑ k, (x k / max (√∑ x²) c) * (q g₀ k / M g₀)`:
  the square root is monotone, so `√(max s c²) = max (√s) c` for `c ≥ 0`, and a common factor moves across a finite sum
  of reals. Every quantity is a real number because the inputs are, and the clamped lengths are at least `c > 0`; the
  extended reals' operations agree with the reals' on real numbers, which is what the first lemmas say.
-/
import proofs.«427464_j14405320311457_3_alg».proof.Proof.Spec
import Idealize.ShloMosaic.PureOps.Ideal.Laws
import Idealize.ShloMosaic.Lib.StableHlo.Predicate

noncomputable section

open scoped BigOperators

namespace Cert.Score

open Idealize.ShloMosaic

/-- The reference's constant: the word `0x2B8CBCCC` is `9223372 · 2⁻⁶³`. -/
def cR : ℝ := 9223372 / 9223372036854775808

/-- It is positive. -/
theorem cR_pos : 0 < cR := by unfold cR; norm_num

/-- The word read as an extended real is that real number. -/
theorem ofBits_eps : Ideal.ofBits .f32 0x2B8CBCCC#32 = ((cR : ℝ) : EReal) := by
  unfold cR
  simp [Ideal.ofBits, Ideal.ieee, -EReal.coe_mul]; norm_num

/-- The kernel's named constant is the square of the reference's. -/
theorem named_eq_sq : ((5316911940649 / 5316911983139663491615228241121378304 : ℝ) : EReal) = ((cR ^ 2 : ℝ) : EReal) := by
  congr 1; unfold cR; norm_num

/-- A finite sum of real numbers, in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, in the extended reals. -/
theorem coe_max (a b : ℝ) : max (a : EReal) (b : EReal) = ((max a b : ℝ) : EReal) :=
  (Monotone.map_max EReal.coe_strictMono.monotone).symm

section Real

variable (x : Fin 256 → ℝ)

/-- The squared length of a real row. -/
def s2 : ℝ := ∑ k : Fin 256, x k * x k

/-- A sum of squares is not negative. -/
theorem s2_nonneg : 0 ≤ s2 x := Finset.sum_nonneg fun k _ => mul_self_nonneg (x k)

/-- The clamped length of a real row. -/
def mR : ℝ := max (Real.sqrt (s2 x)) cR

/-- The clamped length is positive: it is at least the constant. -/
theorem mR_pos : 0 < mR x := lt_of_lt_of_le cR_pos (le_max_right _ _)

/-- On a real row the squared length, the clamped length and the normalised row are the real ones. -/
theorem sqLen_coe : sqLen (fun k => ((x k : ℝ) : EReal)) = ((s2 x : ℝ) : EReal) := by
  unfold sqLen s2
  rw [Ideal.ofBits_zero_f32, zero_add, ← coe_sum]
  exact Finset.sum_congr rfl fun k _ => (EReal.coe_mul _ _).symm

theorem clampLen_coe : clampLen (fun k => ((x k : ℝ) : EReal)) = ((mR x : ℝ) : EReal) := by
  unfold clampLen mR
  rw [sqLen_coe, Ideal.sqrt_coe, if_neg (not_lt.mpr (s2_nonneg x)), ofBits_eps, coe_max]

theorem unitRow_coe (k : Fin 256) : unitRow (fun k => ((x k : ℝ) : EReal)) k = ((x k * (1 / mR x) : ℝ) : EReal) := by
  unfold unitRow
  rw [clampLen_coe, Ideal.div_coe (mR_pos x).ne', EReal.coe_mul]

/-- The square root of the larger of the squared length and `c²` is the clamped length. -/
theorem sqrt_max_sq : Real.sqrt (max (s2 x) (cR ^ 2)) = mR x := by
  unfold mR
  rw [Monotone.map_max (f := Real.sqrt) (fun _ _ h => Real.sqrt_le_sqrt h), Real.sqrt_sq cR_pos.le]

end Real

/-- THE LAW: on real inputs the kernel's pick-and-scale is the reference's cosine. -/
theorem pickScale_eq_cosine (x : Fin 256 → ℝ) (q : Fin 64 → Fin 256 → ℝ) (g₀ : Fin 64) :
    pickScale ((5316911940649 / 5316911983139663491615228241121378304 : ℝ) : EReal) (fun k => ((x k : ℝ) : EReal))
        (BitVec.ofNat 32 g₀.val) (fun k g => unitRow (fun k' => ((q g k' : ℝ) : EReal)) k)
      = cosine (fun k => ((x k : ℝ) : EReal)) (fun k => ((q g₀ k : ℝ) : EReal)) := by
  unfold pickScale cosine
  -- the 64 dot products are real numbers
  have hdot : ∀ g : Fin 64, (∑ k : Fin 256, ((x k : ℝ) : EReal) * unitRow (fun k' => ((q g k' : ℝ) : EReal)) k)
      = ((∑ k : Fin 256, x k * (q g k * (1 / mR (q g))) : ℝ) : EReal) := fun g => by
    rw [← coe_sum]
    exact Finset.sum_congr rfl fun k _ => by rw [unitRow_coe, ← EReal.coe_mul]
  -- the select keeps column g₀
  have hsel : ∀ g : Fin 64, Scalar.select (IntOp.cmpi .eq (BitVec.ofNat 32 g₀.val) (BitVec.ofNat 32 g.val))
        (∑ k : Fin 256, ((x k : ℝ) : EReal) * unitRow (fun k' => ((q g k' : ℝ) : EReal)) k) (Ideal.ofBits .f32 0x00000000#32)
      = if g₀ = g then ((∑ k : Fin 256, x k * (q g k * (1 / mR (q g))) : ℝ) : EReal) else 0 := fun g => by
    rw [hdot, Ideal.ofBits_zero_f32]
    by_cases h : g₀ = g
    · subst h
      rw [if_pos rfl, StableHlo.Predicate.cmpi_eq_iff.mpr rfl]; rfl
    · rw [if_neg h]
      have hne : ¬ IntOp.cmpi .eq (BitVec.ofNat 32 g₀.val) (BitVec.ofNat 32 g.val) = 1#1 := fun h1 => by
        have e := StableHlo.Predicate.cmpi_eq_iff.mp h1
        have e' := congrArg BitVec.toNat e
        simp only [BitVec.toNat_ofNat] at e'
        have h0 := g₀.isLt; have h1 := g.isLt
        exact h (Fin.ext (by omega))
      exact if_neg hne
  rw [Finset.sum_congr rfl fun g _ => hsel g, Finset.sum_ite_eq Finset.univ g₀, if_pos (Finset.mem_univ _)]
  -- the scale is a real number
  have hs : (∑ k : Fin 256, ((x k : ℝ) : EReal) * ((x k : ℝ) : EReal)) = ((s2 x : ℝ) : EReal) := by
    unfold s2; rw [← coe_sum]; exact Finset.sum_congr rfl fun k _ => (EReal.coe_mul _ _).symm
  have hpos : 0 < max (s2 x) (cR ^ 2) := lt_of_lt_of_le (pow_pos cR_pos 2) (le_max_right _ _)
  rw [hs, named_eq_sq, coe_max, Ideal.rsqrt_coe, if_neg (not_lt.mpr hpos.le), if_neg hpos.ne', sqrt_max_sq,
    ← EReal.coe_mul, Ideal.ofBits_zero_f32, zero_add]
  -- the reference's sum is a real number too
  have hr : (∑ k : Fin 256, unitRow (fun k => ((x k : ℝ) : EReal)) k * unitRow (fun k => ((q g₀ k : ℝ) : EReal)) k)
      = ((∑ k : Fin 256, (x k * (1 / mR x)) * (q g₀ k * (1 / mR (q g₀))) : ℝ) : EReal) := by
    rw [← coe_sum]
    exact Finset.sum_congr rfl fun k _ => by rw [unitRow_coe, unitRow_coe, ← EReal.coe_mul]
  rw [hr]
  congr 1
  rw [Finset.sum_mul]
  exact Finset.sum_congr rfl fun k _ => by ring

end Cert.Score

end
-- ==== Proof.Pre.lean ====
/-
  The precondition, read back.

  It says four things, each a conjunction over every entry: every feature and every query entry has absolute value
  below +∞ — on the extended reals, it is a real number —, and every graph id is at least 0 and below 64 as a signed word,
  so it is the word of a number below 64.
-/
import proofs.«427464_j14405320311457_3_alg».proof.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.Pre_finite_inputs.Score

open Idealize.ShloMosaic Idealize.ShloMosaic.ValueIdx Cert.Pre_finite_inputs

/-- The scalar shape has one index. -/
instance : Subsingleton S_.Idx := ⟨fun a b => funext fun d => d.elim0⟩

/-- The word `0x7F800000` is +∞. -/
theorem ofBits_inf : Ideal.ofBits .f32 0x7F800000#32 = ⊤ := by
  simp [Ideal.ofBits, Ideal.ieee]

/-- An extended real whose absolute value is below +∞ is a real number. -/
theorem real_of_abs_lt (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  induction x using EReal.rec with
  | bot =>
    exfalso
    rw [Ideal.hostAbsf_def, Ideal.absf_def, Ideal.cmpf_def, Ideal.ofBits_def, ofBits_inf] at h
    simp [Ideal.cmp] at h
  | coe r => exact ⟨r, rfl⟩
  | top =>
    exfalso
    rw [Ideal.hostAbsf_def, Ideal.absf_def, Ideal.cmpf_def, Ideal.ofBits_def, ofBits_inf] at h
    simp [Ideal.cmp] at h

/-- A signed word that is at least 0 and below 64 is the word of a number below 64. -/
theorem small_of_range (a : BitVec 32) (h0 : IntOp.cmpi .sge a 0#32 = 1#1) (h1 : IntOp.cmpi .slt a 64#32 = 1#1) :
    ∃ g : Fin 64, a = BitVec.ofNat 32 g.val := by
  simp only [IntOp.cmpi, StableHlo.Predicate.ofBool_eq_one_iff, BitVec.sle, BitVec.slt, decide_eq_true_eq] at h0 h1
  have z : (0#32 : BitVec 32).toInt = 0 := by decide
  have s : (64#32 : BitVec 32).toInt = 64 := by decide
  rw [z] at h0
  rw [s] at h1
  have hlt := a.isLt
  rw [BitVec.toInt_eq_toNat_cond] at h0 h1
  have hn : a.toNat < 64 := by
    split at h0 <;> split at h1 <;> omega
  exact ⟨⟨a.toNat, hn⟩, BitVec.eq_of_toNat_eq (by simp only [BitVec.toNat_ofNat]; omega)⟩

/-- THE PRECONDITION READ BACK: real features, real queries, ids in range. -/
theorem decode [Facts] (x : FVec Ideal S500000x256 .f32) (q : FVec Ideal S64x256 .f32) (b : IVec S500000 32)
    (h : fn (F := Ideal) x q b = fun _ => 1#1) :
    (∀ i, ∃ r : ℝ, x i = (r : EReal)) ∧ (∀ i, ∃ r : ℝ, q i = (r : EReal))
      ∧ ∀ n : Fin 500000, ∃ g : Fin 64, b (ix1 n) = BitVec.ofNat 32 g.val := by
  have h0 := congrFun h ix0
  dsimp only [fn, fn_part1] at h0
  obtain ⟨h12, h15⟩ := IntOp.andi_eq_one.1 h0
  obtain ⟨h8, h11⟩ := IntOp.andi_eq_one.1 h12
  obtain ⟨h3, h7⟩ := IntOp.andi_eq_one.1 h8
  refine ⟨fun i => ?_, fun i => ?_, fun n => ?_⟩
  · have e := Host.reduce_andi_all _ _ _ _ _ h3 i
    refine real_of_abs_lt (x i) ?_
    rw [← e]
    show _ = FloatOps.cmpf .olt _ (broadcastInDim S500000x256 ![] Facts.bcast_S_S500000x256 (constant (F := Ideal) S_ .f32 0x7F800000#32) i)
    rw [StableHlo.Predicate.bcast_scalar Facts.bcast_S_S500000x256 Facts.h_S_]
    rfl
  · have e := Host.reduce_andi_all _ _ _ _ _ h7 i
    refine real_of_abs_lt (q i) ?_
    rw [← e]
    show _ = FloatOps.cmpf .olt _ (broadcastInDim S64x256 ![] Facts.bcast_S_S64x256 (constant (F := Ideal) S_ .f32 0x7F800000#32) i)
    rw [StableHlo.Predicate.bcast_scalar Facts.bcast_S_S64x256 Facts.h_S_]
    rfl
  · have e0 := Host.reduce_andi_all _ _ _ _ _ h11 (ix1 n)
    have e1 := Host.reduce_andi_all _ _ _ _ _ h15 (ix1 n)
    refine small_of_range (b (ix1 n)) ?_ ?_
    · rw [← e0]
      show _ = IntOp.cmpi .sge _ (broadcastInDim S500000 ![] Facts.bcast_S_S500000 (constantI S_ 32 0#32) (ix1 n))
      rw [StableHlo.Predicate.bcast_scalar Facts.bcast_S_S500000 Facts.h_S_]
      rfl
    · rw [← e1]
      show _ = IntOp.cmpi .slt _ (broadcastInDim S500000 ![] Facts.bcast_S_S500000 (constantI S_ 32 64#32) (ix1 n))
      rw [StableHlo.Predicate.bcast_scalar Facts.bcast_S_S500000 Facts.h_S_]
      rfl

end Cert.Pre_finite_inputs.Score

end
-- ==== Proof.lean ====
/-
  Cosine scoring of 500000 feature rows against the queries of their graphs: the tiled kernel against the plain reference,
  over the extended reals.

  The reference normalises every feature row and every query (each divided by the larger of its length and a small
  constant ε), gathers for each row the query of its graph, and sums the products along the row. The kernel pads the rows
  to 38 blocks of 13312, normalises the 64 queries once, and per block takes all 64 dot products of each raw row with the
  normalised queries, keeps the one of the row's graph by a select against the column number and a sum over the columns,
  and multiplies it by the reciprocal square root of the larger of the row's squared length and a second constant; the
  padding is cut off at the end.

  The two agree on real inputs with graph ids in [0, 64):
  · the second constant is named the square of the reference's ε (the kernel's literal is that square rounded), and
    √(max s ε²) = max (√s) ε because the square root is monotone, so the kernel's scale is one over the clamped length;
  · the select keeps exactly the column numbered by the id, and the gather reads exactly that row (the wrap of negative
    ids and the clamp both leave an id in range alone, as does the kernel's clip);
  · dividing each factor of a finite sum of reals by a constant is dividing the sum.
  The inputs are real numbers by the precondition, and every clamped length is at least ε > 0, so no operation meets an
  infinity or a division by zero.

  The kernel's value is read off its frame run: one point's store at one row (Proof/Payload.lean), the 38 written-back
  blocks as one array (Proof/Blocks.lean), the host operations before and after the region (Proof/Host.lean,
  Proof/KernelValue.lean); the reference's from its run, one operation at a time (Proof/RefValue.lean); the law is
  Proof/Algebra.lean over the two formulas of Proof/Spec.lean; Proof/Pre.lean reads the precondition back.
-/
import proofs.«427464_j14405320311457_3_alg».proof.Defs
import proofs.«427464_j14405320311457_3_alg».proof.Proof.Gen.Kernel
import proofs.«427464_j14405320311457_3_alg».proof.Proof.Gen.Kernel.Skeleton
import proofs.«427464_j14405320311457_3_alg».proof.Proof.Gen.Kernel.Launch
import proofs.«427464_j14405320311457_3_alg».proof.Proof.Gen.Kernel.Points
import proofs.«427464_j14405320311457_3_alg».proof.Proof.Gen.Kernel.Frame
import proofs.«427464_j14405320311457_3_alg».proof.Proof.Gen.KernelIdeal
import proofs.«427464_j14405320311457_3_alg».proof.Proof.Gen.KernelIdeal.Skeleton
import proofs.«427464_j14405320311457_3_alg».proof.Proof.Gen.KernelIdeal.Launch
import proofs.«427464_j14405320311457_3_alg».proof.Proof.Gen.KernelIdeal.Points
import proofs.«427464_j14405320311457_3_alg».proof.Proof.Gen.KernelIdeal.Frame
import proofs.«427464_j14405320311457_3_alg».proof.Proof.Gen.ReferenceIdeal
import proofs.«427464_j14405320311457_3_alg».proof.Proof.Gen.Pre_finite_inputs
import proofs.«427464_j14405320311457_3_alg».proof.Proof.Gen.ReferenceIdeal.Run
import proofs.«427464_j14405320311457_3_alg».proof.Proof.Gen.ReferenceIdeal.Read
import proofs.«427464_j14405320311457_3_alg».proof.Proof.KernelValue
import proofs.«427464_j14405320311457_3_alg».proof.Proof.RefValue
import proofs.«427464_j14405320311457_3_alg».proof.Proof.Algebra
import proofs.«427464_j14405320311457_3_alg».proof.Proof.Pre
import Idealize.ShloMosaic.Adequacy
import Idealize.ShloMosaic.Init

noncomputable section

namespace Cert.Proof

open Idealize.ShloMosaic Idealize.ShloMosaic.TcCoe Idealize.SL.Sem Idealize.ShloMosaic.ValueIdx
open Cert.Score

/-- The kernel's named constant is the extended real the certificate's table gives it. -/
theorem epsSq_val : Cert.KernelIdeal.Score.epsSq
    = ((5316911940649 / 5316911983139663491615228241121378304 : ℝ) : EReal) :=
  IdealRules.named_const.ideal_named_scalar _ _ _ _ rfl

/-- Under the precondition the kernel program's result array is the reference's, entry by entry. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (Cert.KernelIdeal.Score.argX m c) (Cert.KernelIdeal.Score.argQ m c)
      (Cert.KernelIdeal.Score.argB m c) = fun _ => 1#1) :
    Cert.KernelIdeal.Score.result m c
      = Cert.ReferenceIdeal.Read.val_main_v24 (F := Ideal) (Cert.KernelIdeal.Score.argX m c) (Cert.KernelIdeal.Score.argQ m c)
          (Cert.KernelIdeal.Score.argB m c) := by
  obtain ⟨hx, hq, hb⟩ := Cert.Pre_finite_inputs.Score.decode _ _ _ hpre
  choose xr hxr using hx
  choose qr hqr using hq
  funext j
  obtain ⟨n, rfl⟩ : ∃ n : Fin 500000, j = ix1 n := ⟨j 0, eq_ix1 j⟩
  obtain ⟨g, hg⟩ := hb n
  rw [Cert.KernelIdeal.Score.result_apply m c n g hg, Cert.ReferenceIdeal.Score.ref_row _ _ _ n g hg]
  have e1 : (fun k => Cert.KernelIdeal.Score.argX m c (ix2 n k)) = fun k => ((xr (ix2 n k) : ℝ) : EReal) :=
    funext fun k => hxr _
  have e2 : (fun (k : Fin 256) (g' : Fin 64) => Cert.KernelIdeal.Score.normQ (Cert.KernelIdeal.Score.argQ m c) (ix2 g' k))
      = fun k g' => unitRow (fun k' => ((qr (ix2 g' k') : ℝ) : EReal)) k := by
    funext k g'
    refine (Cert.ReferenceIdeal.Score.unit_q (Cert.KernelIdeal.Score.argQ m c) g' k).trans ?_
    exact congrArg (fun v => unitRow v k) (funext fun k' => hqr _)
  have e3 : (fun k => Cert.KernelIdeal.Score.argQ m c (ix2 g k)) = fun k => ((qr (ix2 g k) : ℝ) : EReal) :=
    funext fun k => hqr _
  rw [e1, e2, e3, epsSq_val]
  exact pickScale_eq_cosine (fun k => xr (ix2 n k)) (fun g' k' => qr (ix2 g' k')) g

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealisation: the kernel's literal `0x179ABE15` read as the square of the reference's ε. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- Both programs run, and from memories that agree on the arguments they end with equal results. -/
theorem algebraic : Cert.algebraic_KernelIdeal_ReferenceIdeal := by
  intro m ρ m' ρ' hpre hagree
  refine ⟨fun c => Cert.KernelIdeal.Score.result m c, Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v24_eq]
  exact (result_eq m c (hpre c)).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
